-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S4000000 : Shape := ⟨1, ![4000000]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x5 .f32) (main_arg1 : IVec S4000000 32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_c_0 : IVec S_ 32 := constantI S_ 32 0#32
  let main_v4 : IVec S4000000 32 := broadcastInDim S4000000 ![] bcast_S_S4000000 main_c_0
  let main_v5 : IVec S4000000 1 := cmpi .sge main_arg1 main_v4
  let main_c_1 : IVec S_ 1 := constantI S_ 1 1#1
  let main_v6 : IVec S_ 1 := (fun x v => Host.reduce IntOp.andi x v reducesTo_S4000000_S_d0 h_S_) main_v5 main_c_1
  let main_v7 : IVec S_ 1 := andi main_v3 main_v6
  let main_c_2 : IVec S_ 32 := constantI S_ 32 5#32
  let main_v8 : IVec S4000000 32 := broadcastInDim S4000000 ![] bcast_S_S4000000 main_c_2
  let main_v9 : IVec S4000000 1 := cmpi .slt main_arg1 main_v8
  let main_c_3 : IVec S_ 1 := constantI S_ 1 1#1
  let main_v10 : IVec S_ 1 := (fun x v => Host.reduce IntOp.andi x v reducesTo_S4000000_S_d0 h_S_) main_v9 main_c_3
  let main_v11 : IVec S_ 1 := andi main_v7 main_v10
  main_v11
-- ==== Kernel.lean ====
abbrev S4000000x5 : Shape := ⟨2, ![4000000, 5]⟩
abbrev S4000000 : Shape := ⟨1, ![4000000]⟩
abbrev S4000000x1 : Shape := ⟨2, ![4000000, 1]⟩
abbrev S2x8x128 : Shape := ⟨3, ![2, 8, 128]⟩
abbrev S8000x5 : Shape := ⟨2, ![8000, 5]⟩
abbrev S8000x1 : Shape := ⟨2, ![8000, 1]⟩
abbrev S1x8x128 : Shape := ⟨3, ![1, 8, 128]⟩
abbrev S8000 : Shape := ⟨1, ![8000]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S4000000x5, .f32⟩
  | .hbm, ⟨1, _⟩ => ⟨S4000000, .i32⟩
  | .hbm, ⟨2, _⟩ => ⟨S4000000x1, .i32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8000x5, .f32⟩
  | .local _ .vmem, ⟨1, _⟩ => ⟨S8000x5, .f32⟩
  | .local _ .vmem, ⟨2, _⟩ => ⟨S8000x1, .i32⟩
  | .local _ .vmem, ⟨3, _⟩ => ⟨S8000x1, .i32⟩
  | .local _ .vmem, ⟨4, _⟩ => ⟨S1x8x128, .f32⟩
  | .local _ .vmem, ⟨5, _⟩ => ⟨S1x8x128, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 250], ![false, false]⟩

def cc0_transform_0 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c250_i32 : BitVec 32 := 250#32
  let v0 : BitVec 32 := Scalar.muli arg0 c250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4000000_S4000000x1 : S4000000.ShapeCasts S4000000x1
  inb_S1x8x128_S1x8x128_0_0_0 : ∀ a, (![0, 0, 0] : Fin 3 → Nat) a + S1x8x128.size a ≤ S1x8x128.size a
  h_S1x8x128 : 0 < S1x8x128.numel
  inb_S8000x5_S8000x5_0_0 : ∀ a, (![0, 0] : Fin 2 → Nat) a + S8000x5.size a ≤ S8000x5.size a
  h_S8000x5 : 0 < S8000x5.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  iota_S8000x5_d1_w32 : S8000x5.Iotas .tc 32 [1]
  broadcasts_S8000x1_S8000x5 : S8000x1.Broadcasts S8000x5
  reduces_S8000x5_S8000 : S8000x5.Reduces [1] S8000
  shapeCasts_S8000_S8000x1 : S8000.ShapeCasts S8000x1
  reduces_S8000x1_S1 : S8000x1.Reduces [0] S1
  shapeCasts_S1_S1x1 : S1.ShapeCasts S1x1
  shapeCasts_S1x8x128_S1x8x128 : S1x8x128.ShapeCasts S1x8x128
  inpos_S1x1_p0_0 : ∀ a, (![0, 0] : Fin 2 → Nat) a < S1x1.size a
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x5.size a ≤ S4000000x5.size a
  hwx0_0 : ∀ i : grid0.Coords, EltTy.bits .f32 = 32 ∨ (Rect.block (s := S4000000x5) S8000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S4000000x1.size a
  hwx0_1 : ∀ i : grid0.Coords, EltTy.bits .i32 = 32 ∨ (Rect.block (s := S4000000x1) S8000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S8000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S4000000 : Shape := ⟨1, ![4000000]⟩
abbrev S4000000x1 : Shape := ⟨2, ![4000000, 1]⟩
abbrev S_ : Shape := ⟨0, ![]⟩
abbrev S4000000x1x1 : Shape := ⟨3, ![4000000, 1, 1]⟩
abbrev S1 : Shape := ⟨1, ![1]⟩
abbrev S1x1x1 : Shape := ⟨3, ![1, 1, 1]⟩
abbrev S5 : Shape := ⟨1, ![5]⟩
abbrev S1x5 : Shape := ⟨2, ![1, 5]⟩

abbrev nBuf : Space → Nat
  | .hbm => 47
  | .vmem => 0
  | .smem => 0
  | _ => 0

abbrev bufTy : (tb : Table) → Fin (tcTables nBuf tb) → BufTy
  | .hbm, ⟨0, _⟩ => ⟨S4000000x5, .f32⟩
  | .hbm, ⟨1, _⟩ => ⟨S4000000, .i32⟩
  | .hbm, ⟨2, _⟩ => ⟨S4000000x1, .i32⟩
  | .hbm, ⟨3, _⟩ => ⟨S_, .i32⟩
  | .hbm, ⟨4, _⟩ => ⟨S4000000x1, .i32⟩
  | .hbm, ⟨5, _⟩ => ⟨S4000000x1, .i1⟩
  | .hbm, ⟨6, _⟩ => ⟨S_, .i32⟩
  | .hbm, ⟨7, _⟩ => ⟨S4000000x1, .i32⟩
  | .hbm, ⟨8, _⟩ => ⟨S4000000x1, .i32⟩
  | .hbm, ⟨9, _⟩ => ⟨S4000000x1, .i32⟩
  | .hbm, ⟨10, _⟩ => ⟨S4000000x1x1, .i32⟩
  | .hbm, ⟨11, _⟩ => ⟨S1, .i32⟩
  | .hbm, ⟨12, _⟩ => ⟨S_, .i32⟩
  | .hbm, ⟨13, _⟩ => ⟨S4000000x1x1, .i32⟩
  | .hbm, ⟨14, _⟩ => ⟨S4000000x1x1, .i1⟩
  | .hbm, ⟨15, _⟩ => ⟨S1x1x1, .i32⟩
  | .hbm, ⟨16, _⟩ => ⟨S4000000x1x1, .i32⟩
  | .hbm, ⟨17, _⟩ => ⟨S4000000x1x1, .i1⟩
  | .hbm, ⟨18, _⟩ => ⟨S4000000x1x1, .i1⟩
  | .hbm, ⟨19, _⟩ => ⟨S_, .i1⟩
  | .hbm, ⟨20, _⟩ => ⟨S4000000x1, .i1⟩
  | .hbm, ⟨21, _⟩ => ⟨S4000000x1, .f32⟩
  | .hbm, ⟨22, _⟩ => ⟨S_, .f32⟩
  | .hbm, ⟨23, _⟩ => ⟨S4000000x1, .f32⟩
  | .hbm, ⟨24, _⟩ => ⟨S4000000x1, .f32⟩
  | .hbm, ⟨25, _⟩ => ⟨S_, .f32⟩
  | .hbm, ⟨26, _⟩ => ⟨S4000000x5, .f32⟩
  | .hbm, ⟨27, _⟩ => ⟨S4000000x5, .f32⟩
  | .hbm, ⟨28, _⟩ => ⟨S4000000x5, .f32⟩
  | .hbm, ⟨29, _⟩ => ⟨S4000000x5, .f32⟩
  | .hbm, ⟨30, _⟩ => ⟨S_, .f32⟩
  | .hbm, ⟨31, _⟩ => ⟨S4000000x5, .f32⟩
  | .hbm, ⟨32, _⟩ => ⟨S4000000x5, .f32⟩
  | .hbm, ⟨33, _⟩ => ⟨S5, .i32⟩
  | .hbm, ⟨34, _⟩ => ⟨S1x5, .i32⟩
  | .hbm, ⟨35, _⟩ => ⟨S4000000x1, .i32⟩
  | .hbm, ⟨36, _⟩ => ⟨S4000000x5, .i32⟩
  | .hbm, ⟨37, _⟩ => ⟨S4000000x5, .i32⟩
  | .hbm, ⟨38, _⟩ => ⟨S4000000x5, .i1⟩
  | .hbm, ⟨39, _⟩ => ⟨S_, .f32⟩
  | .hbm, ⟨40, _⟩ => ⟨S_, .f32⟩
  | .hbm, ⟨41, _⟩ => ⟨S4000000x5, .f32⟩
  | .hbm, ⟨42, _⟩ => ⟨S4000000x5, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_cst : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_cst_3 : Ref sig .tc := ⟨.hbm, 45, rfl⟩
abbrev main_v16 : Ref sig .tc := ⟨.hbm, 46, rfl⟩

abbrev nD : Nat := 1
abbrev τ : Topo := Topo.v7x

variable {F : FTy → Type} [FloatOps F]

class Facts₀ : Prop where
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  shapeCasts_S4000000x1_S4000000x1x1 : S4000000x1.ShapeCasts S4000000x1x1
  bcast_S_S4000000x1x1 : S_.BroadcastsInDim S4000000x1x1 (![] : Fin 0 → Fin S4000000x1x1.rank)
  bcast_S1_S1x1x1_2 : S1.BroadcastsInDim S1x1x1 (![2] : Fin 1 → Fin S1x1x1.rank)
  bcast_S1x1x1_S4000000x1x1_0_1_2 : S1x1x1.BroadcastsInDim S4000000x1x1 (![0, 1, 2] : Fin 3 → Fin S4000000x1x1.rank)
  reducesTo_S4000000x1x1_S4000000x1_d2 : S4000000x1x1.ReducesTo [2] S4000000x1
  h_S_ : 0 < S_.numel
  bcast_S_S4000000x5 : S_.BroadcastsInDim S4000000x5 (![] : Fin 0 → Fin S4000000x5.rank)
  bcast_S4000000x1_S4000000x5_0_1 : S4000000x1.BroadcastsInDim S4000000x5 (![0, 1] : Fin 2 → Fin S4000000x5.rank)
  bcast_S5_S1x5_1 : S5.BroadcastsInDim S1x5 (![1] : Fin 1 → Fin S1x5.rank)
  bcast_S1x5_S4000000x5_0_1 : S1x5.BroadcastsInDim S4000000x5 (![0, 1] : Fin 2 → Fin S4000000x5.rank)
  reducesTo_S4000000x5_S_d0_1 : S4000000x5.ReducesTo [0, 1] S_
  gather_S4000000x5_S4000000x1x1_S4000000x1_n_1_0_0_1_2_11_wf : GatherDims.WF S4000000x5 S4000000x1x1 S4000000x1 [] [1] [0] [1] [0] 2 ![1, 1]

variable [Facts₀]

def gather_S4000000x5_S4000000x1x1_S4000000x1_n_1_0_0_1_2_11 : GatherDims S4000000x5 S4000000x1x1 S4000000x1 where
  offsetDims := []
  collapsedSliceDims := [1]
  operandBatchingDims := [0]
  startIndicesBatchingDims := [0]
  startIndexMap := [1]
  indexVectorDim := 2
  sliceSizes := ![1, 1]
  wf := gather_S4000000x5_S4000000x1x1_S4000000x1_n_1_0_0_1_2_11_wf

class Facts : Prop extends Facts₀ where

variable [Facts]
-- ==== Proof.Spec.lean ====
/-
  The multi-class hinge loss, as one function of the score matrix and the class labels.

  For a score matrix `X` with five columns and a label `k b` (a column) for each row `b`, the entry `(b, c)`
  contributes nothing when `c` is the row's label and otherwise the hinge `max 0 (1 + X b c - X b (k b))`: the
  margin by which column `c` comes within one of the labelled column. The loss is the sum of all entries'
  contributions divided by the number of off-label entries. The integer labels arrive as 32-bit words; `Labels T k`
  says that the word of row `b` is the column number `k b`.
-/
import Idealize.ShloMosaic.PureOps.Ideal
import Idealize.ShloMosaic.Lib.ValueIdx

noncomputable section

namespace Cert.Hinge

open Idealize.ShloMosaic Idealize.ShloMosaic.ValueIdx

/-- The words `T` of the `n` rows are the column numbers `k`. -/
def Labels {n : Nat} (T : (⟨1, ![n]⟩ : Shape).Idx → BitVec 32) (k : Fin n → Fin 5) : Prop :=
  ∀ b : Fin n, T (ix1 b) = BitVec.ofNat 32 (k b).val

/-- The margin constant, the float one. -/
abbrev one : EReal := Ideal.ofBits .f32 0x3F800000#32

/-- What entry `(b, c)` contributes: nothing at the row's label, else the hinge against the labelled column. -/
def term {n : Nat} (X : (⟨2, ![n, 5]⟩ : Shape).Idx → EReal) (k : Fin n → Fin 5) (b : Fin n) (c : Fin 5) : EReal :=
  if c = k b then 0 else max 0 ((one + X (ix2 b c)) - X (ix2 b (k b)))

/-- A row's contribution. -/
def rowTerm {n : Nat} (X : (⟨2, ![n, 5]⟩ : Shape).Idx → EReal) (k : Fin n → Fin 5) (b : Fin n) : EReal :=
  ∑ c : Fin 5, term X k b c

/-- All rows' contributions. -/
def total {n : Nat} (X : (⟨2, ![n, 5]⟩ : Shape).Idx → EReal) (k : Fin n → Fin 5) : EReal :=
  ∑ b : Fin n, rowTerm X k b

/-- The loss over four million rows: the total from zero, over sixteen million, as a rank-0 array. -/
def loss (X : (⟨2, ![4000000, 5]⟩ : Shape).Idx → EReal) (k : Fin 4000000 → Fin 5) : (⟨0, ![]⟩ : Shape).Idx → EReal :=
  fun _ => Ideal.div (0 + total X k) (Ideal.ofBits .f32 0x4B742400#32)

end Cert.Hinge

end
-- ==== Proof.LibKeepdims.lean ====
/-
  A reduction along the rows of a matrix kept as a column (`keepdims=True`) and spread back over the matrix, read at
  an index. A row reduction of an `[a, b]` matrix is an `[a]` vector; `keepdims` casts it to a column `[a, 1]`, and
  the arithmetic that follows broadcasts the column to `[a, b]`. Read at `(p, c)` the result is the vector at `p`,
  whatever the column `c`. Beside that: the index a row reduction inserts — the reduced index `p` with the column
  `k` put back on axis 1 — is `(p, k)`. General in the extents and in the element type; nothing here depends on a
  kernel.
-/
import Idealize.ShloMosaic.Lib.Pipeline.Value
import Idealize.ShloMosaic.Lib.ValueIdx
import Idealize.ShloMosaic.PureOps.Reduce

namespace Idealize.ShloMosaic.Keepdims

open Idealize.ShloMosaic Idealize.ShloMosaic.ValueIdx

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and spread over the matrix reads, at `(p, c)`, the vector at `p`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The index a reduction along the rows inserts: the reduced index `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

end Idealize.ShloMosaic.Keepdims
-- ==== Proof.Payload.lean ====
/-
  The body arithmetic of the hinge kernel, read at the extended reals.

  The body takes a block `x0` of 8000 rows by 5 columns of scores, a column `x1` of 8000 label words and the running
  accumulator `acc`. With the column number spread along each row, the mask `hot` is 1 at `(r, c)` exactly when the
  word of row `r` is `c`. The row's labelled score `gold r` is the sum over the row of the scores kept under the mask
  (zero elsewhere): under `Labels` one summand survives, `x0 (r, k r)`. Every entry then holds the hinge
  `max 0 ((1 + x0 (r, c)) - gold r)`, set to zero under the mask: that is `Cert.Hinge.term`. Summing the entries of a
  row gives `rowTerm`, summing the rows gives `total`, and the body adds that one number to every element of the
  accumulator. Sums are over an additive commutative monoid, so no finiteness is asked.
-/
import proofs.«401084_j64931315581274_1_alg».proof.Proof.Gen.KernelIdeal.Skeleton
import proofs.«401084_j64931315581274_1_alg».proof.Proof.Spec
import proofs.«401084_j64931315581274_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Hinge

/-- The mask: 1 at `(r, c)` when the label word of row `r` is the column number `c`, else 0. -/
def hot (x1 : Vec Ideal S8000x1 .i32) : IVec S8000x5 1 :=
  cmpi .eq (iota .tc S8000x5 32 [1] iota_S8000x5_d1_w32)
    (broadcastTo S8000x5 (shapeCast S8000x1 x1 shapeCasts_S8000x1_S8000x1) broadcasts_S8000x1_S8000x5)

/-- A row's labelled score: the sum over the row of the scores kept under the mask. -/
def gold (x0 : Vec Ideal S8000x5 .f32) (x1 : Vec Ideal S8000x1 .i32) : FVec Ideal S8000 .f32 :=
  multiReduction .add [1] S8000 (select (hot x1) x0 (broadcast S8000x5 (Scalar.ofBits .f32 0x00000000#32)))
    0x00000000#32 reduces_S8000x5_S8000 (.inl rfl) rfl

/-- The entries: zero under the mask, elsewhere the hinge of `(1 + score) - labelled score`. -/
def masked (x0 : Vec Ideal S8000x5 .f32) (x1 : Vec Ideal S8000x1 .i32) : FVec Ideal S8000x5 .f32 :=
  select (hot x1) (broadcast S8000x5 (Scalar.ofBits .f32 0x00000000#32))
    (maximumf (broadcast S8000x5 (Scalar.ofBits .f32 0x00000000#32))
      (subf (addf (broadcast S8000x5 (Scalar.ofBits .f32 0x3F800000#32)) x0)
        (broadcastTo S8000x5 (shapeCast S8000x1 (gold x0 x1) shapeCasts_S8000_S8000x1) broadcasts_S8000x1_S8000x5)))

/-- The sum of each row's entries. -/
def rows (x0 : Vec Ideal S8000x5 .f32) (x1 : Vec Ideal S8000x1 .i32) : FVec Ideal S8000 .f32 :=
  multiReduction .add [1] S8000 (masked x0 x1) 0x00000000#32 reduces_S8000x5_S8000 (.inl rfl) rfl

/-- The sum of the row sums, over the 8000 rows. -/
def tot (x0 : Vec Ideal S8000x5 .f32) (x1 : Vec Ideal S8000x1 .i32) : FVec Ideal S1 .f32 :=
  multiReduction .add [0] S1 (shapeCast S8000x1 (rows x0 x1) shapeCasts_S8000_S8000x1) 0x00000000#32 reduces_S8000x1_S1 (.inl rfl) rfl

/-- The body is the accumulator plus that one number spread over its shape. -/
theorem pay2_eq (x0 : Vec Ideal S8000x5 .f32) (x1 : Vec Ideal S8000x1 .i32) (acc : Vec Ideal S1x8x128 .f32) :
    k0_pay2 (F := Ideal) x0 x1 acc
      = addf (shapeCast S1x8x128 acc shapeCasts_S1x8x128_S1x8x128)
          (broadcast S1x8x128 (extractAt ![0, 0] (shapeCast S1x1 (tot x0 x1) shapeCasts_S1_S1x1) inpos_S1x1_p0_0)) := rfl

/-- Two column numbers below five have equal 32-bit words exactly when they are equal. -/
theorem cmpi_eq_ofNat (c k : Fin 5) :
    IntOp.cmpi .eq (BitVec.ofNat 32 c.val) (BitVec.ofNat 32 k.val) = if c = k then 1#1 else 0#1 := by
  revert c k; decide

/-- A sum with one surviving summand. -/
theorem sum_ite_fin5 (f : Fin 5 → EReal) (k0 : Fin 5) : (∑ k : Fin 5, if k = k0 then f k else 0) = f k0 := by
  rw [Finset.sum_ite_eq' Finset.univ k0 f, if_pos (Finset.mem_univ _)]

/-- Under `Labels` the mask at `(r, c)` says `c = k r`. -/
theorem hot_apply (x1 : Vec Ideal S8000x1 .i32) (kk : Fin 8000 → Fin 5)
    (h : Labels (n := 8000) (fun j => x1 (ix2 (j 0) (0 : Fin 1))) kk) (r : Fin 8000) (c : Fin 5) :
    hot x1 (ix2 r c) = if c = kk r then 1#1 else 0#1 := by
  have hx : x1 (ix2 r (0 : Fin 1)) = BitVec.ofNat 32 (kk r).val := h r
  have e1 : iota .tc S8000x5 32 [1] iota_S8000x5_d1_w32 (ix2 r c) = BitVec.ofNat 32 c.val :=
    iota_single_apply .tc S8000x5 32 1 iota_S8000x5_d1_w32 (ix2 r c)
  have e2 : broadcastTo S8000x5 (shapeCast S8000x1 x1 shapeCasts_S8000x1_S8000x1) broadcasts_S8000x1_S8000x5 (ix2 r c)
      = x1 (ix2 r (0 : Fin 1)) := by
    rw [shapeCast_self]
    exact Keepdims.broadcastTo_a1_ab_apply x1 broadcasts_S8000x1_S8000x5 r c
  show IntOp.cmpi .eq _ _ = _
  rw [e1, e2, hx]
  exact cmpi_eq_ofNat c (kk r)

/-- The labelled score of row `r` is `x0 (r, k r)`. -/
theorem gold_apply (x0 : Vec Ideal S8000x5 .f32) (x1 : Vec Ideal S8000x1 .i32) (kk : Fin 8000 → Fin 5)
    (h : Labels (n := 8000) (fun j => x1 (ix2 (j 0) (0 : Fin 1))) kk) (r : Fin 8000) :
    gold x0 x1 (ix1 r) = x0 (ix2 r (kk r)) := by
  have e : ∀ k : Fin 5, select (hot x1) x0 (broadcast S8000x5 (Scalar.ofBits (F := Ideal) .f32 0x00000000#32))
      (reduces_S8000x5_S8000.lift (ix1 r) k) = if k = kk r then x0 (ix2 r k) else 0 := by
    intro k
    rw [Keepdims.lift_row reduces_S8000x5_S8000 r k]
    show Scalar.select (hot x1 (ix2 r k)) (x0 (ix2 r k)) (Ideal.ofBits .f32 0x00000000#32) = _
    rw [hot_apply x1 kk h r k, Ideal.ofBits_zero_f32]
    by_cases hk : k = kk r
    · rw [if_pos hk, if_pos hk]; exact select_one _ _
    · rw [if_neg hk, if_neg hk]; exact select_zero _ _
  unfold gold
  refine (Ideal.multiReduction_add_single _ 0x00000000#32 reduces_S8000x5_S8000 (.inl rfl) rfl (ix1 r)).trans ?_
  refine (Finset.sum_congr rfl fun k _ => e k).trans ?_
  exact sum_ite_fin5 (fun k => x0 (ix2 r k)) (kk r)

/-- Entry `(r, c)` is `term`. -/
theorem masked_apply (x0 : Vec Ideal S8000x5 .f32) (x1 : Vec Ideal S8000x1 .i32) (kk : Fin 8000 → Fin 5)
    (h : Labels (n := 8000) (fun j => x1 (ix2 (j 0) (0 : Fin 1))) kk) (r : Fin 8000) (c : Fin 5) :
    masked x0 x1 (ix2 r c) = term (n := 8000) x0 kk r c := by
  have eg : broadcastTo S8000x5 (shapeCast S8000x1 (gold x0 x1) shapeCasts_S8000_S8000x1) broadcasts_S8000x1_S8000x5 (ix2 r c)
      = x0 (ix2 r (kk r)) :=
    (Keepdims.keepdims_apply (gold x0 x1) shapeCasts_S8000_S8000x1 broadcasts_S8000x1_S8000x5 r c).trans (gold_apply x0 x1 kk h r)
  show Scalar.select (hot x1 (ix2 r c)) (Ideal.ofBits .f32 0x00000000#32)
      (max (Ideal.ofBits .f32 0x00000000#32) ((Ideal.ofBits .f32 0x3F800000#32 + x0 (ix2 r c))
        - broadcastTo S8000x5 (shapeCast S8000x1 (gold x0 x1) shapeCasts_S8000_S8000x1) broadcasts_S8000x1_S8000x5 (ix2 r c))) = _
  rw [eg, hot_apply x1 kk h r c, Ideal.ofBits_zero_f32]
  unfold term
  by_cases hc : c = kk r
  · rw [if_pos hc, if_pos hc]; exact select_one _ _
  · rw [if_neg hc, if_neg hc]; exact select_zero _ _

/-- Row `r` sums to `rowTerm`. -/
theorem rows_apply (x0 : Vec Ideal S8000x5 .f32) (x1 : Vec Ideal S8000x1 .i32) (kk : Fin 8000 → Fin 5)
    (h : Labels (n := 8000) (fun j => x1 (ix2 (j 0) (0 : Fin 1))) kk) (r : Fin 8000) :
    rows x0 x1 (ix1 r) = rowTerm (n := 8000) x0 kk r := by
  have e : ∀ k : Fin 5, masked x0 x1 (reduces_S8000x5_S8000.lift (ix1 r) k) = term (n := 8000) x0 kk r k := by
    intro k
    rw [Keepdims.lift_row reduces_S8000x5_S8000 r k]
    exact masked_apply x0 x1 kk h r k
  unfold rows
  refine (Ideal.multiReduction_add_single _ 0x00000000#32 reduces_S8000x5_S8000 (.inl rfl) rfl (ix1 r)).trans ?_
  exact Finset.sum_congr rfl fun k _ => e k

/-- The index a reduction along the columns of a one-column matrix inserts is `(k, 0)`. -/
theorem lift_col (k : Fin 8000) : reduces_S8000x1_S1.lift (ix1 (0 : Fin 1)) k = ix2 k (0 : Fin 1) := by
  funext c; apply Fin.ext
  fin_cases c <;> rfl

/-- The rows sum to `total`. -/
theorem tot_apply (x0 : Vec Ideal S8000x5 .f32) (x1 : Vec Ideal S8000x1 .i32) (kk : Fin 8000 → Fin 5)
    (h : Labels (n := 8000) (fun j => x1 (ix2 (j 0) (0 : Fin 1))) kk) :
    tot x0 x1 (ix1 (0 : Fin 1)) = total (n := 8000) x0 kk := by
  have e : ∀ k : Fin 8000, shapeCast S8000x1 (rows x0 x1) shapeCasts_S8000_S8000x1 (reduces_S8000x1_S1.lift (ix1 (0 : Fin 1)) k)
      = rowTerm (n := 8000) x0 kk k := by
    intro k
    rw [lift_col k]
    exact (Keepdims.shapeCast_a_a1_apply (rows x0 x1) shapeCasts_S8000_S8000x1 k 0).trans (rows_apply x0 x1 kk h k)
  unfold tot
  refine (Ideal.multiReduction_add_single _ 0x00000000#32 reduces_S8000x1_S1 (.inl rfl) rfl (ix1 (0 : Fin 1))).trans ?_
  exact Finset.sum_congr rfl fun k _ => e k

/-- The element the body spreads over the accumulator is `total`. -/
theorem extract_apply (x0 : Vec Ideal S8000x5 .f32) (x1 : Vec Ideal S8000x1 .i32) (kk : Fin 8000 → Fin 5)
    (h : Labels (n := 8000) (fun j => x1 (ix2 (j 0) (0 : Fin 1))) kk) :
    extractAt ![0, 0] (shapeCast S1x1 (tot x0 x1) shapeCasts_S1_S1x1) inpos_S1x1_p0_0 = total (n := 8000) x0 kk := by
  have hi : (fun a : Fin S1x1.rank => (⟨(![0, 0] : Fin 2 → Nat) a, inpos_S1x1_p0_0 a⟩ : Fin (S1x1.size a)))
      = ix2 (0 : Fin 1) (0 : Fin 1) := by
    funext a; apply Fin.ext
    fin_cases a <;> rfl
  unfold extractAt
  rw [hi]
  exact (Keepdims.shapeCast_a_a1_apply (tot x0 x1) shapeCasts_S1_S1x1 0 0).trans (tot_apply x0 x1 kk h)

/-- The first body writes the zero word everywhere. -/
theorem pay1_apply (y : S1x8x128.Idx) : (k0_pay1 (F := Ideal)) y = 0 := by
  show Ideal.ofBits .f32 0x00000000#32 = 0
  exact Ideal.ofBits_zero_f32

/-- The second body adds `total` to every element of the accumulator. -/
theorem pay2_apply (x0 : Vec Ideal S8000x5 .f32) (x1 : Vec Ideal S8000x1 .i32) (acc : Vec Ideal S1x8x128 .f32)
    (kk : Fin 8000 → Fin 5) (h : Labels (n := 8000) (fun j => x1 (ix2 (j 0) (0 : Fin 1))) kk) (y : S1x8x128.Idx) :
    k0_pay2 (F := Ideal) x0 x1 acc y = acc y + total (n := 8000) x0 kk := by
  rw [pay2_eq, shapeCast_self, extract_apply x0 x1 kk h]
  rfl

end Cert.KernelIdeal.Pay

end
-- ==== Proof.KernelPieces.lean ====
/-
  What one run of the kernel body leaves in the output block's buffer, as a value.

  The body overwrites the whole output block once per grid point. At the first point of a run of 250 it first stores
  the zero block and reads it back, so it leaves the body's arithmetic applied to the score block, the label block
  and the zero block; at every other point it leaves the same arithmetic applied to the two input blocks and to what
  the point before left. Both are read off the body's covering stores: the last store covers the block, and its value
  is the arithmetic of the loads, each of which reads a whole buffer.
-/
import proofs.«401084_j64931315581274_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem out_B (c : Dev nD) (i : grid0.Coords) (arg2 : Memref sig .tc .vmem S8000x5 .f32) (harg2 : arg2.IsWhole)
    (arg3 : Memref sig .tc .vmem S8000x1 .i32) (harg3 : arg3.IsWhole) (arg4 : Memref sig .tc .vmem S1x8x128 .f32)
    (harg4 : arg4.IsWhole) (hc0 : ¬cond0_0 i) (x0 : Vec F S8000x5 .f32) (x1 : Vec F S8000x1 .i32)
    (xo2 : Vec F S1x8x128 .f32) :
    out0_B_2 c i arg2 harg2 arg3 harg3 arg4 harg4 hc0 x0 x1 xo2 = k0_pay2 x0 x1 xo2 := by
  unfold out0_B_2
  rw [View.read_writes_eq_canon _ _ _ (cover0_B_2 c i arg2 harg2 arg3 harg3 arg4 harg4 hc0 x0 x1 xo2)]
  unfold kernelRun0_B
  dsimp only
  sl_unfold_words
  rw [View.canon_unit_zero hz3]
  simp only [View.readAt_eq_ld, harg2.read_unread, harg3.read_unread, harg4.read_unread,
    View.ld_unit_zero (S := S8000x5) hz2, View.ld_unit_zero (S := S8000x1) hz2, View.ld_unit_zero (S := S1x8x128) hz3]

theorem out_A (c : Dev nD) (i : grid0.Coords) (arg2 : Memref sig .tc .vmem S8000x5 .f32) (harg2 : arg2.IsWhole)
    (arg3 : Memref sig .tc .vmem S8000x1 .i32) (harg3 : arg3.IsWhole) (arg4 : Memref sig .tc .vmem S1x8x128 .f32)
    (harg4 : arg4.IsWhole) (hc0 : cond0_0 i) (x0 : Vec F S8000x5 .f32) (x1 : Vec F S8000x1 .i32) :
    out0_A_2 c i arg2 harg2 arg3 harg3 arg4 harg4 hc0 x0 x1 = k0_pay2 x0 x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x8x128) hz3, View.readCov_unit_zero (S := S1x8x128) _ hz3]
  simp only [View.readAt_eq_ld, harg2.read_unread, harg3.read_unread,
    View.ld_unit_zero (S := S8000x5) hz2, View.ld_unit_zero (S := S8000x1) hz2, View.ld_unit_zero (S := S1x8x128) hz3]

end Cert.KernelIdeal.Pieces

end
-- ==== Proof.KernelBlocks.lean ====
/-
  The two input blocks of a grid point, read at an index.

  Grid point `t` (of 500) fetches rows `8000 t` to `8000 t + 7999`: of the score matrix all five columns, and of
  the label vector, laid out beforehand as a one-column matrix, the one column. So the score block at `(r, c)` is
  the score matrix at `(8000 t + r, c)`, and the label block at `(r, 0)` is the label of row `8000 t + r`.
-/
import proofs.«401084_j64931315581274_1_alg».proof.Proof.Gen.KernelIdeal.Frame
import proofs.«401084_j64931315581274_1_alg».proof.Proof.LibKeepdims
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- Row `r` of the block of grid point `t` is row `8000 t + r` of the whole array. -/
def rowOf (t : Fin cfg0.N) (r : Fin 8000) : Fin 4000000 :=
  ⟨8000 * t.val + r.val, by
    have h1 : t.val < 500 := lt_of_lt_of_eq t.isLt (show cfg0.N = 500 from N_0)
    have h2 := r.isLt
    omega⟩

/-- Both input windows step along the rows with the grid point and stay at column block 0. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)

/-- The score block of point `t` at `(r, cc)` is the score matrix at `(8000 t + r, cc)`. -/
theorem iblk0_apply (c : Dev nD) (t : Fin cfg0.N) (r : Fin 8000) (cc : Fin 5) :
    (iblk m c 0 t : Vec F S8000x5 .f32) (ix2 r cc) = m ((c : Thread nD τ).loc main_arg0) (ix2 (rowOf t r) cc) := by
  have hi := idx0 t
  unfold iblk
  rw [View.read_apply]
  show V m c main_arg0 _ = _
  rw [V_main_arg0]
  congr 1
  funext a
  apply Fin.ext
  match a with
  | ⟨0, _⟩ => show win0_0.index t 0 * 8000 + 1 * r.val = 8000 * t.val + r.val; rw [hi.1]; omega
  | ⟨1, _⟩ => show win0_0.index t 1 * 5 + 1 * cc.val = cc.val; rw [hi.2]; omega

/-- The label column the region finds is the label vector laid out as a column. -/
theorem V_labels (c : Dev nD) :
    (V m c main_v0 : S4000000x1.Idx → BitVec 32)
      = shapeCast S4000000x1 (m ((c : Thread nD τ).loc main_arg1)) shapeCasts_S4000000_S4000000x1 := by
  show StableHlo.after hostOps0 (fun b => m (c, b)) (Proc.devRef .tc main_v0) = _
  after_results
  rfl

/-- The label block of point `t` at `(r, 0)` is the label of row `8000 t + r`. -/
theorem iblk1_apply (c : Dev nD) (t : Fin cfg0.N) (r : Fin 8000) :
    (iblk m c 1 t : Vec F S8000x1 .i32) (ix2 r (0 : Fin 1)) = m ((c : Thread nD τ).loc main_arg1) (ix1 (rowOf t r)) := by
  have hi := idx1 t
  unfold iblk
  rw [View.read_apply]
  show V m c main_v0 _ = _
  rw [V_labels]
  refine (congrArg _ ?_).trans (Keepdims.shapeCast_a_a1_apply _ shapeCasts_S4000000_S4000000x1 (rowOf t r) (0 : Fin 1))
  funext a
  apply Fin.ext
  match a with
  | ⟨0, _⟩ => show win0_1.index t 0 * 8000 + 1 * r.val = 8000 * t.val + r.val; rw [hi.1]; omega
  | ⟨1, _⟩ => show win0_1.index t 1 * 1 + 1 * 0 = 0; rw [hi.2]

end Cert.KernelIdeal.Blocks

end
-- ==== Proof.KernelAcc.lean ====
/-
  The accumulator across the grid.

  Every grid point adds to each element of the output block the total of its own 8000 rows: the sum over the rows of
  the block, and over the five columns, of the specification's entry term, the block's rows being rows
  `8000 t + r` of the whole matrix and its label words their labels. The block is reset at the points that are
  multiples of 250. So after point `n` each element holds the sum of the block totals of the points from the last
  multiple of 250 up to `n`: by induction on `n`, splitting on whether `n` starts a run.
-/
import proofs.«401084_j64931315581274_1_alg».proof.Proof.Payload
import proofs.«401084_j64931315581274_1_alg».proof.Proof.KernelPieces
import proofs.«401084_j64931315581274_1_alg».proof.Proof.KernelBlocks
import proofs.«401084_j64931315581274_1_alg».proof.Proof.Spec
import Mathlib.Algebra.BigOperators.Intervals
import Mathlib.Algebra.Order.BigOperators.Group.LocallyFinite

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Hinge Cert.KernelIdeal.Blocks Cert.KernelIdeal.Pieces Cert.KernelIdeal.Pay

variable (m : (ℓ : Loc nD τ sig) → Buf (Elt Ideal) ℓ) (k : Fin 4000000 → Fin 5)

/-- The score matrix and the label words as the kernel is launched with them. -/
abbrev scores (c : Dev nD) : (⟨2, ![4000000, 5]⟩ : Shape).Idx → EReal := m ((c : Thread nD τ).loc main_arg0)
abbrev labelWords (c : Dev nD) : (⟨1, ![4000000]⟩ : Shape).Idx → BitVec 32 := m ((c : Thread nD τ).loc main_arg1)

/-- The two input blocks of grid point `t`, at their literal types. -/
abbrev xblk (c : Dev nD) (t : Fin cfg0.N) : Vec Ideal S8000x5 .f32 := iblk m c 0 t
abbrev lblk (c : Dev nD) (t : Fin cfg0.N) : Vec Ideal S8000x1 .i32 := iblk m c 1 t

theorem xblk_apply (c : Dev nD) (t : Fin cfg0.N) (r : Fin 8000) (cc : Fin 5) :
    xblk m c t (ix2 r cc) = scores m c (ix2 (rowOf t r) cc) := iblk0_apply m c t r cc
theorem lblk_apply (c : Dev nD) (t : Fin cfg0.N) (r : Fin 8000) :
    lblk m c t (ix2 r (0 : Fin 1)) = labelWords m c (ix1 (rowOf t r)) := iblk1_apply m c t r

/-- The labels of the rows of block `t`. -/
def blkK (t : Fin cfg0.N) : Fin 8000 → Fin 5 := fun r => k (rowOf t r)

/-- The label words of block `t` are the labels of its rows. -/
theorem blk_labels (c : Dev nD) (hk : Labels (labelWords m c) k) (t : Fin cfg0.N) :
    Labels (n := 8000) (fun j => lblk m c t (ix2 (j 0) (0 : Fin 1))) (blkK k t) := fun r => by
  show lblk m c t (ix2 r (0 : Fin 1)) = _
  rw [lblk_apply]
  exact hk (rowOf t r)

/-- The total of block `t` is the sum of its rows' contributions in the whole matrix. -/
theorem blk_total (c : Dev nD) (t : Fin cfg0.N) :
    total (n := 8000) (xblk m c t) (blkK k t) = ∑ r : Fin 8000, rowTerm (scores m c) k (rowOf t r) := by
  unfold total
  refine Fintype.sum_congr _ _ fun r => ?_
  unfold rowTerm
  refine Fintype.sum_congr _ _ fun cc => ?_
  unfold term blkK
  rw [xblk_apply, xblk_apply]

/-- What grid point `t` adds to its accumulator: the contributions of the 8000 rows of its block (nothing past the grid). -/
def tot (c : Dev nD) (t : ℕ) : EReal :=
  if h : t < cfg0.N then ∑ r : Fin 8000, rowTerm (scores m c) k (rowOf ⟨t, h⟩ r) else 0

/-- THE ACCUMULATOR. After grid point `n` every entry of the output block holds the sum of what the points of
    `n`'s run of 250 have added so far: the run starts at the last multiple of 250, where the block is reset. -/
theorem outsAt_eq (c : Dev nD) (hk : Labels (labelWords m c) k) :
    ∀ (n : ℕ) (h : n < cfg0.N) (y : S1x8x128.Idx),
      outsAt0 m c n h y = ∑ s ∈ Finset.Ico (250 * (n / 250)) (n + 1), tot m k c s
  | 0, h, y => by
    rw [outsAt0_A m c ⟨0, h⟩ rfl, out_A]
    refine (pay2_apply (xblk m c ⟨0, h⟩) (lblk m c ⟨0, h⟩) _ (blkK k ⟨0, h⟩) (blk_labels m k c hk ⟨0, h⟩) y).trans ?_
    rw [pay1_apply, zero_add, blk_total]
    show _ = ∑ s ∈ Finset.Ico 0 1, tot m k c s
    rw [Nat.Ico_succ_singleton, Finset.sum_singleton]
    unfold tot
    rw [dif_pos h]
  | n + 1, h, y => by
    have hN : cfg0.N = 500 := N_0
    by_cases h0 : (n + 1) % 250 = 0
    · rw [outsAt0_A m c ⟨n + 1, h⟩ h0, out_A]
      refine (pay2_apply (xblk m c ⟨n + 1, h⟩) (lblk m c ⟨n + 1, h⟩) _ (blkK k ⟨n + 1, h⟩) (blk_labels m k c hk ⟨n + 1, h⟩) y).trans ?_
      rw [pay1_apply, zero_add, blk_total]
      have e : 250 * ((n + 1) / 250) = n + 1 := by omega
      rw [e, Nat.Ico_succ_singleton, Finset.sum_singleton]
      unfold tot
      rw [dif_pos h]
    · rw [outsAt0_B m c ⟨n + 1, h⟩ h0, out_B]
      refine (pay2_apply (xblk m c ⟨n + 1, h⟩) (lblk m c ⟨n + 1, h⟩) _ (blkK k ⟨n + 1, h⟩) (blk_labels m k c hk ⟨n + 1, h⟩) y).trans ?_
      show outsAt0 m c n _ y + _ = _
      rw [outsAt_eq c hk n (Nat.lt_of_succ_lt h) y, blk_total]
      have e : 250 * ((n + 1) / 250) = 250 * (n / 250) := by omega
      rw [e, Finset.sum_Ico_succ_top (by omega : 250 * (n / 250) ≤ n + 1)]
      congr 1
      unfold tot
      rw [dif_pos h]

end Cert.KernelIdeal.Acc

end
-- ==== Proof.LibBlockSum.lean ====
/-
  Sums over a range cut into equal blocks, and an accumulator that adds one block sum per step.

  A contraction of length `K = nb * bs` computed block by block — `nb` steps, each adding the sum over one block of
  `bs` consecutive terms to what the step before left, the first step starting from the first block's sum alone —
  ends at the sum over the whole range. Stated over an arbitrary commutative monoid and an arbitrary way `e` of
  naming the term at position `l` of block `kb`, so that it serves any block count and block size.
-/
import Mathlib.Algebra.BigOperators.Fin
import Mathlib.Data.Fintype.BigOperators
import Mathlib.Logic.Equiv.Fin.Basic

namespace Cert.LibBlockSum

open scoped BigOperators

/-- The sum over the blocks of the sums inside each block is the sum over the whole range: with `K = nb * bs` and
    `e kb l` the term at position `l` of block `kb`, that is at `kb * bs + l`,
    `∑ kb, ∑ l, f (e kb l) = ∑ k, f k`. -/
theorem sum_blocks {M : Type*} [AddCommMonoid M] {nb bs K : ℕ} (hK : nb * bs = K) (f : Fin K → M)
    (e : Fin nb → Fin bs → Fin K) (he : ∀ kb l, (e kb l).val = kb.val * bs + l.val) :
    ∑ kb : Fin nb, ∑ l : Fin bs, f (e kb l) = ∑ k : Fin K, f k := by
  subst hK
  rw [← Fintype.sum_prod_type', ← Equiv.sum_comp finProdFinEquiv f]
  refine Fintype.sum_congr _ _ fun p => congrArg f (Fin.ext ?_)
  rw [he]
  show p.1.val * bs + p.2.val = p.2.val + bs * p.1.val
  rw [Nat.mul_comm, Nat.add_comm]

/-- An accumulator that holds `B 0` after step `0` and adds `B (k + 1)` at step `k + 1` holds, after step `k`, the
    sum of `B` over the steps up to `k`. -/
theorem acc_eq_partial {M : Type*} [AddCommMonoid M] {nb : ℕ} (a B : Fin (nb + 1) → M)
    (h0 : a 0 = B 0)
    (hs : ∀ (k : ℕ) (h : k + 1 < nb + 1), a ⟨k + 1, h⟩ = a ⟨k, Nat.lt_of_succ_lt h⟩ + B ⟨k + 1, h⟩) :
    ∀ (k : ℕ) (h : k < nb + 1), a ⟨k, h⟩ = ∑ i : Fin (k + 1), B (Fin.castLE (Nat.succ_le_of_lt h) i)
  | 0, h => by
    rw [Fin.sum_univ_one]
    exact h0
  | k + 1, h => by
    rw [hs k h, acc_eq_partial a B h0 hs k (Nat.lt_of_succ_lt h)]
    exact (Fin.sum_univ_castSucc (fun i : Fin (k + 1 + 1) => B (Fin.castLE (Nat.succ_le_of_lt h) i))).symm

/-- So after the last step it holds the sum of all of `B`. -/
theorem acc_last_eq_sum {M : Type*} [AddCommMonoid M] {nb : ℕ} (a B : Fin (nb + 1) → M)
    (h0 : a 0 = B 0)
    (hs : ∀ (k : ℕ) (h : k + 1 < nb + 1), a ⟨k + 1, h⟩ = a ⟨k, Nat.lt_of_succ_lt h⟩ + B ⟨k + 1, h⟩) :
    a (Fin.last nb) = ∑ i : Fin (nb + 1), B i :=
  (acc_eq_partial a B h0 hs nb (Nat.lt_succ_self nb)).trans
    (Fintype.sum_congr _ _ fun i => congrArg B (Fin.ext rfl))

/-- The blocked contraction: an accumulator that holds the first block's sum after step `0` and adds block `k + 1`'s
    sum at step `k + 1` ends, after the last of the `nb + 1` steps, at the sum over the whole range of length
    `K = (nb + 1) * bs`. -/
theorem blocked_acc_eq_sum {M : Type*} [AddCommMonoid M] {nb bs K : ℕ} (hK : (nb + 1) * bs = K) (f : Fin K → M)
    (e : Fin (nb + 1) → Fin bs → Fin K) (he : ∀ kb l, (e kb l).val = kb.val * bs + l.val)
    (a : Fin (nb + 1) → M)
    (h0 : a 0 = ∑ l : Fin bs, f (e 0 l))
    (hs : ∀ (k : ℕ) (h : k + 1 < nb + 1),
      a ⟨k + 1, h⟩ = a ⟨k, Nat.lt_of_succ_lt h⟩ + ∑ l : Fin bs, f (e ⟨k + 1, h⟩ l)) :
    a (Fin.last nb) = ∑ k : Fin K, f k :=
  (acc_last_eq_sum a (fun kb => ∑ l : Fin bs, f (e kb l)) h0 hs).trans (sum_blocks hK f e he)

end Cert.LibBlockSum
-- ==== Proof.SumRuns.lean ====
/-
  A sum of four million terms taken as two runs of 250 blocks of 8000 consecutive terms each: the grouping in which
  a grid of 500 steps, accumulated in two runs, adds up the rows of a matrix of four million rows. Two uses of the
  block-sum lemma: the runs of blocks, then the blocks of terms.
-/
import proofs.«401084_j64931315581274_1_alg».proof.Proof.LibBlockSum
import Mathlib.Algebra.BigOperators.Intervals
import Mathlib.Algebra.BigOperators.Fin
import Mathlib.Data.Fintype.BigOperators

namespace Cert.SumRuns

open scoped BigOperators

/-- Four million terms summed as two runs of 250 blocks of 8000 consecutive terms. -/
theorem sum_runs {M : Type*} [AddCommMonoid M] (g : ℕ → M) (f : Fin 4000000 → M)
    (hg : ∀ (u : ℕ) (h : u < 500), g u = ∑ r : Fin 8000, f ⟨8000 * u + r.val, by have := r.isLt; omega⟩) :
    ∑ s : Fin 2, ∑ u ∈ Finset.Ico (250 * s.val) (250 * s.val + 250), g u = ∑ b : Fin 4000000, f b := by
  -- the two runs of 250 blocks are the 500 blocks: run `s`, place `l` is block `s * 250 + l`
  have hruns : ∑ s : Fin 2, ∑ u ∈ Finset.Ico (250 * s.val) (250 * s.val + 250), g u = ∑ u : Fin 500, g u.val := by
    rw [← Cert.LibBlockSum.sum_blocks (nb := 2) (bs := 250) (K := 500) rfl (fun u : Fin 500 => g u.val)
      (fun s l => ⟨s.val * 250 + l.val, by have := s.isLt; have := l.isLt; omega⟩) (fun _ _ => rfl)]
    refine Fintype.sum_congr _ _ fun s => ?_
    rw [Finset.sum_Ico_eq_sum_range, Nat.add_sub_cancel_left, Finset.sum_range]
    refine Fintype.sum_congr _ _ fun l => congrArg g ?_
    show 250 * s.val + l.val = s.val * 250 + l.val
    rw [Nat.mul_comm]
  -- each block is 8000 consecutive terms: block `u`, place `r` is term `u * 8000 + r`
  rw [hruns, ← Cert.LibBlockSum.sum_blocks (nb := 500) (bs := 8000) (K := 4000000) rfl f
    (fun u r => ⟨u.val * 8000 + r.val, by have := u.isLt; have := r.isLt; omega⟩) (fun _ _ => rfl)]
  refine Fintype.sum_congr _ _ fun u => ?_
  rw [hg u.val u.isLt]
  refine Fintype.sum_congr _ _ fun r => congrArg f (Fin.ext ?_)
  show 8000 * u.val + r.val = u.val * 8000 + r.val
  rw [Nat.mul_comm]

end Cert.SumRuns
-- ==== Proof.KernelValue.lean ====
/-
  The kernel's result as the specification's loss.

  The output array has one row block per run of 250 grid points, written back after the run's last point with the
  run's accumulated sum in every element; the two blocks cover the array. The operations after the region take element
  (s, 0, 0) of each block, add the two from zero and divide by sixteen million. The two runs' sums, each a sum over
  250 blocks of 8000 rows, regroup into the sum over all four million rows: the specification's total.
-/
import proofs.«401084_j64931315581274_1_alg».proof.Proof.KernelAcc
import proofs.«401084_j64931315581274_1_alg».proof.Proof.SumRuns
import Idealize.ShloMosaic.Lib.Pipeline.Value
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Hinge Cert.KernelIdeal.Blocks Cert.KernelIdeal.Acc

variable (m : (ℓ : Loc nD τ sig) → Buf (Elt Ideal) ℓ) (ρ : Dev nD → PrngReg) (k : Fin 4000000 → Fin 5)

/-- The output window's block index is the run number: it stays put during a run of 250 grid points. -/
theorem idx2 : ∀ t : Fin cfg0.N, win0_2.index t 0 = t.val / 250 ∧ win0_2.index t 1 = 0 ∧ win0_2.index t 2 = 0 :=
  (by decide +kernel : ∀ t : Fin grid0.N, win0_2.index t 0 = t.val / 250 ∧ win0_2.index t 1 = 0 ∧ win0_2.index t 2 = 0)

/-- What run `s` accumulates: what its 250 grid points add. -/
def accOf (c : Dev nD) (s : ℕ) : EReal := ∑ u ∈ Finset.Ico (250 * s) (250 * s + 250), tot m k c u

/-- The output array after the region: every entry of row block `s` holds run `s`'s accumulated sum. -/
abbrev G (c : Dev nD) : Buf (Elt Ideal) ((c : Thread nD τ).loc main_v1) := fun i => accOf m k c (i 0).val

/-- The write-back at the last point of a run writes that run's sum into the run's block. -/
theorem flushed_eq (c : Dev nD) (hk : Labels (labelWords m c) k) (t : Fin cfg0.N) (hf : (cfg0.win 2).flush t = true) :
    (dats m 0 c).flushed 2 t = ((cfg0.win 2).blk t).view.read (Elt Ideal) (G m k c) := by
  have h249 : t.val % 250 = 249 := (flush0_2 t).mp hf
  obtain ⟨e0, e1, e2⟩ := idx2 t
  show (cfg0.win 2).cut (grid0.coords t) ((dats m 0 c).after 2 t) = _
  rw [after0_2]
  funext j
  show outsAt0 m c t.val t.isLt j = accOf m k c ((((cfg0.win 2).blk t).view.emb j) 0).val
  rw [outsAt_eq m k c hk]
  have hj : (j 0).val < 1 := (j 0).isLt
  have he : ((((cfg0.win 2).blk t).view.emb j) 0).val = t.val / 250 := by
    show win0_2.index t 0 * 1 + 1 * (j 0).val = _
    rw [e0]; omega
  rw [he]
  unfold accOf
  have h1 : t.val + 1 = 250 * (t.val / 250) + 250 := by omega
  rw [h1]

/-- Every entry of the output array is in the block the last point of its run writes back. -/
theorem cover (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 500 := N_0
  obtain ⟨t, ht⟩ : ∃ t : Fin cfg0.N, t.val = 250 * (i 0).val + 249 := ⟨⟨250 * (i 0).val + 249, by omega⟩, rfl⟩
  obtain ⟨e0, e1, e2⟩ := idx2 t
  refine ⟨t, (flush0_2 t).mpr (by omega), ?_⟩
  show i ∈ ((View.whole main_v1).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [e0]; omega
  | ⟨1, _⟩ =>
    show win0_2.index t 1 * 8 ≤ (i 1).val ∧ (i 1).val < win0_2.index t 1 * 8 + 8
    rw [e1]; omega
  | ⟨2, _⟩ =>
    show win0_2.index t 2 * 128 ≤ (i 2).val ∧ (i 2).val < win0_2.index t 2 * 128 + 128
    rw [e2]; omega

/-- So the output array ends holding the two runs' sums, row block by row block. -/
theorem final_o (c : Dev nD) (hk : Labels (labelWords m c) k) : (dats m 0 c).arrAt 2 cfg0.N = G m k c :=
  (dats m 0 c).arrAt_eq_of_cover 2 (G m k c) (flushed_eq m k c hk) cover

/-- The index type of the two-entry vector is the two positions. -/
def idx2Equiv : S2.Idx ≃ Fin 2 where
  toFun j := j 0
  invFun s := ix1 s
  left_inv j := (eq_ix1 j).symm
  right_inv _ := rfl

/-- Entry `(s, 0, 0)` of each row block, laid out as a two-entry vector, summed: the two runs' sums. -/
theorem sliced_sum (c : Dev nD) :
    (∑ j : S2.Idx, (shapeCast S2 (extractStridedSlice S2x1x1 ![0, 0, 0] (G m k c) slices_S2x8x128_S2x1x1_0_0_0)
        shapeCasts_S2x1x1_S2 : S2.Idx → EReal) j) = ∑ s : Fin 2, accOf m k c s.val := by
  refine Fintype.sum_equiv idx2Equiv _ _ fun j => ?_
  have h0 : (j 0).val < 2 := (j 0).isLt
  rw [shapeCast_apply _ shapeCasts_S2x1x1_S2 j (ix3 (j 0) (0 : Fin 1) (0 : Fin 1)) (by
      rw [Shape.rowMajor_val_three, Shape.rowMajor_val_one]
      show ((j 0).val * 1 + 0) * 1 + 0 = (j 0).val
      omega),
    extractStridedSlice_apply _ (G m k c) slices_S2x8x128_S2x1x1_0_0_0 _ (ix3 (j 0) (0 : Fin 8) (0 : Fin 128)) (fun a => by
      match a with
      | ⟨0, _⟩ => show (j 0).val = 0 + (j 0).val; omega
      | ⟨1, _⟩ => rfl
      | ⟨2, _⟩ => rfl)]
  rfl

/-- The two runs' sums are the total of all four million rows. -/
theorem runs_total (c : Dev nD) : ∑ s : Fin 2, accOf m k c s.val = total (scores m c) k := by
  unfold accOf total
  refine Cert.SumRuns.sum_runs (tot m k c) (rowTerm (scores m c) k) fun u h => ?_
  have hN : cfg0.N = 500 := N_0
  unfold tot
  rw [dif_pos (by omega : u < cfg0.N)]
  rfl

/-- The loss the host operations after the region compute from the output array. -/
theorem tail_eq (c : Dev nD) (hk : Labels (labelWords m c) k) :
    Pipeline.afterTail₀ cfgs (dats m) 0 (V0 m) [hostOps1] c main_v5 = loss (scores m c) k := by
  unfold Pipeline.afterTail₀
  show StableHlo.after hostOps1 _ (Proc.devRef .tc main_v5) = _
  after_results
  rw [(Pipeline.withArrays_arr spec0 launch0.win.arr_inj c _ _ 2).trans (final_o m k c hk)]
  funext i
  unfold loss
  have key : ∀ y0 : S2.Idx → EReal,
      Host.reduceAdd (F := Ideal) y0 (constant S_ .f32 0x00000000#32) reducesTo_S2_S_d0 h_S_ i
        = Ideal.ofBits .f32 0x00000000#32 + ∑ j : S2.Idx, y0 j := fun y0 => by
    simp only [Host.reduceAdd, Ideal.hostReduceAdd_def]
    exact Ideal.hostReduceAdd_total reducesTo_S2_S_d0 (fun b => b.elim0) y0 _ i
  refine congrArg₂ Ideal.div ((key _).trans ?_) rfl
  rw [Ideal.ofBits_zero_f32]
  refine congrArg (fun z : EReal => 0 + z) ?_
  exact (sliced_sum m k c).trans (runs_total m k c)

/-- THE KERNEL'S RUN, READ: under labels in range the result is the loss of the launched arrays, which end unchanged. -/
theorem run (kc : Dev nD → Fin 4000000 → Fin 5) (hk : ∀ c, Labels (labelWords m c) (kc c)) :
    θ_run defs (onTc (τ := τ) (main (F := Ideal))) ⟨m, fun _ => 0, ρ⟩ fun r => ∀ c : Dev nD,
      r.2.mem ((c : Thread nD τ).loc main_v5) = loss (scores m c) (kc c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (Pipeline.mem_restRefs_of main_v5 (by decide) (by decide))).trans (tail_eq m (kc c) c (hk c)),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Value

end
-- ==== Proof.LibTRefCast.lean ====
/-
  A typed reference to a buffer carries the buffer's element and shape type as an equation, and contents cross between
  the value's type and the buffer's by transport along it. Carried to the buffer's type and straight back, contents are
  unchanged, whatever the equation's proof: the transport there and the transport back cancel.
-/
import Idealize.ShloMosaic.Lib.StableHlo

namespace Cert.LibTRefCast

open Idealize.ShloMosaic Idealize.ShloMosaic.StableHlo

/-- Contents carried to a buffer's own type and back are the contents. -/
theorem ofBuf_toBuf_self {sig : RefSig} {Val : EltTy → Type} {T : BufTy} (x : TRef sig T) (v : T.Contents Val) :
    x.ofBuf (x.toBuf v) = v := by
  obtain ⟨r, h, h2, h3⟩ := x
  subst h
  rfl

end Cert.LibTRefCast
-- ==== Proof.RefCasts.lean ====
/-
  The reference program's buffers each have the type of the tensor value they hold, so carrying contents between a
  value's type and its buffer's type changes nothing. Stated here for the nine buffers at which the program's called
  functions (the gather along the class axis, the masked select) meet the operations around them: an argument or an
  earlier result entering a called function, and a called function's result leaving it.
-/
import proofs.«401084_j64931315581274_1_alg».proof.Proof.Gen.ReferenceIdeal
import Idealize.ShloMosaic.Lib.StableHlo

noncomputable section

namespace Cert.ReferenceIdeal.RefCasts

open Cert.ReferenceIdeal Cert.ReferenceIdeal.Gen Idealize.ShloMosaic Idealize.ShloMosaic.StableHlo

variable {F : FTy → Type} [FloatOps F]

theorem toBuf_main_v14 (h1 : main_v14.ty = (⟨S4000000x5, .f32⟩ : BufTy)) (h2 : main_v14.space ≠ .host) (h3 : main_v14.isScoped = false)
    (v : (⟨S4000000x5, .f32⟩ : BufTy).Contents (Elt F)) : (TRef.of (T := ⟨S4000000x5, .f32⟩) main_v14 h1 h2 h3).toBuf v = v := rfl
theorem toBuf_main_v1 (h1 : main_v1.ty = (⟨S4000000x1, .f32⟩ : BufTy)) (h2 : main_v1.space ≠ .host) (h3 : main_v1.isScoped = false)
    (v : (⟨S4000000x1, .f32⟩ : BufTy).Contents (Elt F)) : (TRef.of (T := ⟨S4000000x1, .f32⟩) main_v1 h1 h2 h3).toBuf v = v := rfl
theorem toBuf_main_call0_v4 (h1 : main_call0_v4.ty = (⟨S4000000x1, .i32⟩ : BufTy)) (h2 : main_call0_v4.space ≠ .host) (h3 : main_call0_v4.isScoped = false)
    (v : (⟨S4000000x1, .i32⟩ : BufTy).Contents (Elt F)) : (TRef.of (T := ⟨S4000000x1, .i32⟩) main_call0_v4 h1 h2 h3).toBuf v = v := rfl
theorem ofBuf_main_v13 (h1 : main_v13.ty = (⟨S4000000x5, .i1⟩ : BufTy)) (h2 : main_v13.space ≠ .host) (h3 : main_v13.isScoped = false)
    (v : (⟨S4000000x5, .i1⟩ : BufTy).Contents (Elt F)) : (TRef.of (T := ⟨S4000000x5, .i1⟩) main_v13 h1 h2 h3).ofBuf v = v := rfl
theorem ofBuf_main_v7 (h1 : main_v7.ty = (⟨S4000000x5, .f32⟩ : BufTy)) (h2 : main_v7.space ≠ .host) (h3 : main_v7.isScoped = false)
    (v : (⟨S4000000x5, .f32⟩ : BufTy).Contents (Elt F)) : (TRef.of (T := ⟨S4000000x5, .f32⟩) main_v7 h1 h2 h3).ofBuf v = v := rfl
theorem ofBuf_main_call0_v5 (h1 : main_call0_v5.ty = (⟨S4000000x1x1, .i32⟩ : BufTy)) (h2 : main_call0_v5.space ≠ .host) (h3 : main_call0_v5.isScoped = false)
    (v : (⟨S4000000x1x1, .i32⟩ : BufTy).Contents (Elt F)) : (TRef.of (T := ⟨S4000000x1x1, .i32⟩) main_call0_v5 h1 h2 h3).ofBuf v = v := rfl
theorem ofBuf_main_v0 (h1 : main_v0.ty = (⟨S4000000x1, .i32⟩ : BufTy)) (h2 : main_v0.space ≠ .host) (h3 : main_v0.isScoped = false)
    (v : (⟨S4000000x1, .i32⟩ : BufTy).Contents (Elt F)) : (TRef.of (T := ⟨S4000000x1, .i32⟩) main_v0 h1 h2 h3).ofBuf v = v := rfl
theorem ofBuf_main_arg0 (h1 : main_arg0.ty = (⟨S4000000x5, .f32⟩ : BufTy)) (h2 : main_arg0.space ≠ .host) (h3 : main_arg0.isScoped = false)
    (v : (⟨S4000000x5, .f32⟩ : BufTy).Contents (Elt F)) : (TRef.of (T := ⟨S4000000x5, .f32⟩) main_arg0 h1 h2 h3).ofBuf v = v := rfl
theorem ofBuf_main_cst_1 (h1 : main_cst_1.ty = (⟨S_, .f32⟩ : BufTy)) (h2 : main_cst_1.space ≠ .host) (h3 : main_cst_1.isScoped = false)
    (v : (⟨S_, .f32⟩ : BufTy).Contents (Elt F)) : (TRef.of (T := ⟨S_, .f32⟩) main_cst_1 h1 h2 h3).ofBuf v = v := rfl

end Cert.ReferenceIdeal.RefCasts

end
-- ==== Proof.LibGatherBatch.lean ====
/-
  A gather with one batching axis, read at an index. The operand is a [B × N] table, the start indices a
  [B × 1 × 1] array (one index per row, the index vector on the last axis), the result a [B × 1] column: the rows
  are batched (result row `b` reads operand row `b`), the column axis is collapsed and start-indexed, and there are
  no offset axes. This is what `take_along_axis` along axis 1 with one index per row prints as. Result row `b` is the
  table's row `b` at row `b`'s start index read signed and clamped into [0, N − 1].
-/
import Idealize.ShloMosaic.PureOps
import Idealize.ShloMosaic.Lib.ValueIdx

noncomputable section

namespace Cert.GatherBatch

open Idealize.ShloMosaic Idealize.ShloMosaic.ValueIdx

/-- Row `b` of the batched gather: the operand's row `b` at the clamped start index of row `b`. The hypotheses are the
    printed dimension numbers, each closed by `rfl` at a printed record. -/
theorem gather_row {α : Type} {B N w : Nat} (d : GatherDims ⟨2, ![B, N]⟩ ⟨3, ![B, 1, 1]⟩ ⟨2, ![B, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![B, N]⟩ : Shape).Idx → α) (idx : IVec ⟨3, ![B, 1, 1]⟩ w) (b : Fin B) (hN : 0 < N) :
    Host.gather d x idx (ix2 b (0 : Fin 1))
      = x (ix2 b ⟨min (idx (ix3 b (0 : Fin 1) (0 : Fin 1))).toInt.toNat (N - 1), by omega⟩) := by
  -- the gather reads the operand at the operand index: the two indices agree axis by axis, as naturals
  unfold Host.gather
  congr 1
  funext a
  refine Fin.ext ?_
  -- where each operand axis stands: axis 0 is the batching axis, axis 1 is collapsed and carries the start index;
  -- neither is kept for an offset
  have hb0 : (0 : Fin 2) ∈ d.operandBatchingDims := by rw [hob]; exact List.mem_singleton.mpr rfl
  have hb1 : (1 : Fin 2) ∉ d.operandBatchingDims := fun h => by
    rw [hob] at h; exact absurd (congrArg Fin.val (List.mem_singleton.mp h)) Nat.one_ne_zero
  have hc1 : (1 : Fin 2) ∈ d.collapsedSliceDims := by rw [hcoll]; exact List.mem_singleton.mpr rfl
  have hk0 : (0 : Fin 2) ∉ d.sKept := fun h => ((d.mem_sKept _).1 h).2 hb0
  have hk1 : (1 : Fin 2) ∉ d.sKept := fun h => ((d.mem_sKept _).1 h).1 hc1
  have hm1 : (1 : Fin 2) ∈ d.startIndexMap := by rw [hsim]; exact List.mem_singleton.mpr rfl
  match a with
  | ⟨0, _⟩ =>
    -- the row axis: no start (a batching axis is not start-indexed), no offset; the batching coordinate is the
    -- result's coordinate on its batch axis 0, the one paired with the start indices' batching axis 0, which is `b`
    show d.start _ idx 0 + d.batchCoord _ 0 + d.offCoord _ 0 = b.val
    rw [d.start_batching _ idx 0 hb0, d.offCoord_eq_zero _ 0 hk0, Nat.zero_add, Nat.add_zero]
    unfold GatherDims.batchCoord
    rw [dif_pos hb0]
    unfold GatherDims.siCoord
    simp only [Fin.val_cast]
    -- with the dimension numbers put in, the axis lists are literal lists and the positions in them compute
    obtain ⟨od, cd, ob, sb, sm, iv, ss, wf⟩ := d
    dsimp only at hoff hcoll hob hsb hsim hivd
    subst hoff hcoll hob hsb hsim hivd
    rfl
  | ⟨1, _⟩ =>
    -- the column axis: no batching coordinate, no offset; the start is the row's start index, read signed and clamped
    -- so that a slice of size 1 fits, that is into [0, N − 1]
    show d.start _ idx 1 + d.batchCoord _ 1 + d.offCoord _ 1 = min (idx (ix3 b (0 : Fin 1) (0 : Fin 1))).toInt.toNat (N - 1)
    rw [d.batchCoord_eq_zero _ 1 hb1, d.offCoord_eq_zero _ 1 hk1, Nat.add_zero]
    unfold GatherDims.start
    rw [dif_pos hm1]
    have hsl : d.sliceSizes 1 = 1 := d.slice_collapsed 1 hc1
    -- the start index is read at (b, 0, 0): the result's batch coordinates (b, 0) on the first two axes, and the
    -- component's number, 0, on the index vector's axis; the last two axes have extent 1, so only the first is a question
    have hsi : d.siIdx (ix2 b (0 : Fin 1)) ⟨List.idxOf (1 : Fin 2) d.startIndexMap, List.idxOf_lt_length_iff.2 hm1⟩
        = ix3 b (0 : Fin 1) (0 : Fin 1) := by
      funext c
      match c with
      | ⟨0, _⟩ =>
        obtain ⟨od, cd, ob, sb, sm, iv, ss, wf⟩ := d
        dsimp only at hoff hcoll hob hsb hsim hivd
        subst hoff hcoll hob hsb hsim hivd
        rfl
      | ⟨1, _⟩ => exact Subsingleton.elim (α := Fin 1) _ _
      | ⟨2, _⟩ => exact Subsingleton.elim (α := Fin 1) _ _
    rw [hsi, hsl]
    rfl

end Cert.GatherBatch

end
-- ==== Proof.RefValue.lean ====
/-
  The reference's value, read at the extended reals: it is the hinge loss of the specification.

  The reference gathers each row's labelled score (`take_along_axis`: the label is wrapped if negative, checked to lie
  in [0, 4], and the row is read at the label clamped into that range; an out-of-range label would give a NaN), forms
  the hinge `max 0 ((1 + X b c) - X b (k b))` at every entry, sets the entries on the label's column to zero
  (`where` on the mask "column number ≠ label"), sums all entries from zero and divides by sixteen million. Under
  `Labels` the label word of row `b` is the column number `k b`, below five: it is not negative, it is in range, and it
  clamps to itself, so the gathered score is `X b (k b)`; the mask at `(b, c)` says `c ≠ k b`; every entry is
  `Cert.Hinge.term`; the sum over the index set splits into rows and columns and is `Cert.Hinge.total`.
-/
import proofs.«401084_j64931315581274_1_alg».proof.Proof.RefRead
import proofs.«401084_j64931315581274_1_alg».proof.Proof.LibGatherBatch
import proofs.«401084_j64931315581274_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Hinge

/-! ## Words: a column number below five as a 32-bit word -/

/-- It is not negative, so the wrap-around of negative indices leaves it. -/
theorem wrap_word (c : Fin 5) :
    Scalar.select (IntOp.cmpi .slt (BitVec.ofNat 32 c.val) 0#32) (IntOp.addi (BitVec.ofNat 32 c.val) 5#32) (BitVec.ofNat 32 c.val)
      = BitVec.ofNat 32 c.val := by
  revert c; decide

/-- It lies between 0 and 4, signed. -/
theorem inrange_word (c : Fin 5) :
    IntOp.andi (IntOp.cmpi .sge (BitVec.ofNat 32 c.val) 0#32) (IntOp.cmpi .sle (BitVec.ofNat 32 c.val) 4#32) = 1#1 := by
  revert c; decide

/-- Read signed and clamped into [0, 4] it is itself. -/
theorem clamp_word (c : Fin 5) : min (BitVec.ofNat 32 c.val).toInt.toNat (5 - 1) = c.val := by
  revert c; decide

/-- Two such words differ exactly when the numbers differ. -/
theorem cmpi_ne_word (c d : Fin 5) :
    IntOp.cmpi .ne (BitVec.ofNat 32 c.val) (BitVec.ofNat 32 d.val) = if c = d then 0#1 else 1#1 := by
  revert c d; decide

/-! ## The labels as a column, and the start indices of the gather -/

/-- The labels as a column: row `b` holds the word of `k b`. -/
theorem col_apply (T : (⟨S4000000, .i32⟩ : BufTy).Contents (Elt Ideal)) (k : Fin 4000000 → Fin 5)
    (hk : Labels (n := 4000000) T k) (b : Fin 4000000) :
    val_main_v0 (F := Ideal) T (ix2 b (0 : Fin 1)) = BitVec.ofNat 32 (k b).val := by
  have hi : idx_main_v0 (ix2 b (0 : Fin 1)) = ix1 b := by
    funext a
    match a with
    | ⟨0, _⟩ => rfl
  rw [val_main_v0_apply, hi]
  exact hk b

/-- The gather's start index of row `b` is that word: wrapping a non-negative word leaves it. -/
theorem start_apply (T : (⟨S4000000, .i32⟩ : BufTy).Contents (Elt Ideal)) (k : Fin 4000000 → Fin 5)
    (hk : Labels (n := 4000000) T k) (b : Fin 4000000) :
    val_main_call0_v5 (F := Ideal) T (ix3 b (0 : Fin 1) (0 : Fin 1)) = BitVec.ofNat 32 (k b).val := by
  have hi : idx_main_call0_v5 (ix3 b (0 : Fin 1) (0 : Fin 1)) = ix2 b (0 : Fin 1) := by
    funext a; apply Fin.ext
    match a with
    | ⟨0, _⟩ => show ((b.val * 1 + 0) * 1 + 0) / 1 = b.val; omega
    | ⟨1, _⟩ => rfl
  rw [val_main_call0_v5_apply, hi, val_main_call0_v4_apply, val_main_call0_v1_apply, val_main_call0_v3_apply,
    col_apply T k hk b]
  exact wrap_word (k b)

/-! ## The gather's validity mask and the gather: the labelled score -/

/-- A fold of `and` over one-bit words that are all 1, from 1, is 1. -/
theorem fold_andi_one {ι : Type} [DecidableEq ι] (S : Finset ι) (g : ι → BitVec 1) (hg : ∀ n ∈ S, g n = 1#1) :
    S.fold IntOp.andi 1#1 g = 1#1 := by
  induction S using Finset.induction_on with
  | empty => rfl
  | insert a S ha ih =>
    rw [Finset.fold_insert ha, hg a (Finset.mem_insert_self a S), ih fun n hn => hg n (Finset.mem_insert_of_mem hn)]
    rfl

/-- Dropping the last axis of `[n, 1, 1]` gives `[n, 1]`. -/
theorem reduces_d2 : S4000000x1x1.Reduces [2] S4000000x1 := by decide

/-- The index the reduction along the last axis inserts over `(b, 0)` is `(b, 0, 0)`. -/
theorem lift_d2 (b : Fin 4000000) (n : Fin (S4000000x1x1.size 2)) :
    reduces_d2.lift (ix2 b (0 : Fin 1)) n = ix3 b (0 : Fin 1) (0 : Fin 1) := by
  funext a; apply Fin.ext
  match a with
  | ⟨0, _⟩ => rfl
  | ⟨1, _⟩ => rfl
  | ⟨2, _⟩ => exact congrArg Fin.val (Subsingleton.elim (α := Fin 1) _ _)

/-- The validity mask of row `b` is 1: the start index is in range. -/
theorem valid_apply (T : (⟨S4000000, .i32⟩ : BufTy).Contents (Elt Ideal)) (k : Fin 4000000 → Fin 5)
    (hk : Labels (n := 4000000) T k) (b : Fin 4000000) :
    val_main_call0_v12 (F := Ideal) T (ix2 b (0 : Fin 1)) = 1#1 := by
  have e : ∀ n : Fin (S4000000x1x1.size 2),
      val_main_call0_v11 (F := Ideal) T (reduces_d2.lift (ix2 b (0 : Fin 1)) n) = 1#1 := by
    intro n
    rw [lift_d2 b n, val_main_call0_v11_apply, val_main_call0_v7_apply, val_main_call0_v10_apply, start_apply T k hk b,
      val_main_call0_v6_apply, val_main_call0_c_2_apply, val_main_call0_v9_apply, val_main_call0_v8_apply,
      val_main_call0_c_1_apply]
    exact inrange_word (k b)
  unfold val_main_call0_v12
  rw [Host.reduce_eq_fold_single IntOp.andi _ _ reducesTo_S4000000x1x1_S4000000x1_d2 reduces_d2 h_S_ (ix2 b (0 : Fin 1))]
  exact fold_andi_one _ _ fun n _ => e n

/-- The gather at row `b` reads `X b (k b)`. -/
theorem gather_apply (X : (⟨S4000000x5, .f32⟩ : BufTy).Contents (Elt Ideal)) (T : (⟨S4000000, .i32⟩ : BufTy).Contents (Elt Ideal))
    (k : Fin 4000000 → Fin 5) (hk : Labels (n := 4000000) T k) (b : Fin 4000000) :
    val_main_call0_v13 (F := Ideal) X T (ix2 b (0 : Fin 1)) = X (ix2 b (k b)) := by
  unfold val_main_call0_v13
  rw [Cert.GatherBatch.gather_row gather_S4000000x5_S4000000x1x1_S4000000x1_n_1_0_0_1_2_11 rfl rfl rfl rfl rfl rfl X
    (val_main_call0_v5 (F := Ideal) T) b (by decide)]
  refine congrArg (fun c : Fin 5 => X (ix2 b c)) (Fin.ext ?_)
  show min (val_main_call0_v5 (F := Ideal) T (ix3 b (0 : Fin 1) (0 : Fin 1))).toInt.toNat (5 - 1) = (k b).val
  rw [start_apply T k hk b]
  exact clamp_word (k b)

/-- The labelled score of row `b`. -/
theorem gold_apply (X : (⟨S4000000x5, .f32⟩ : BufTy).Contents (Elt Ideal)) (T : (⟨S4000000, .i32⟩ : BufTy).Contents (Elt Ideal))
    (k : Fin 4000000 → Fin 5) (hk : Labels (n := 4000000) T k) (b : Fin 4000000) :
    val_main_v1 (F := Ideal) X T (ix2 b (0 : Fin 1)) = X (ix2 b (k b)) := by
  rw [val_main_v1_apply, valid_apply T k hk b, gather_apply X T k hk b]
  exact select_one _ _

/-! ## The entries -/

/-- The off-label mask at `(b, c)`. -/
theorem mask_apply (T : (⟨S4000000, .i32⟩ : BufTy).Contents (Elt Ideal)) (k : Fin 4000000 → Fin 5)
    (hk : Labels (n := 4000000) T k) (b : Fin 4000000) (c : Fin 5) :
    val_main_v13 (F := Ideal) T (ix2 b c) = if c = k b then 0#1 else 1#1 := by
  have h11 : val_main_v11 (F := Ideal) (ix2 b c) = BitVec.ofNat 32 c.val := by
    rw [val_main_v11_apply, val_main_v9_apply, val_main_v8_apply]
  have hi : idx_main_v10 (idx_main_v12 (ix2 b c)) = ix1 b := by
    funext a
    match a with
    | ⟨0, _⟩ => rfl
  have h12 : val_main_v12 (F := Ideal) T (ix2 b c) = BitVec.ofNat 32 (k b).val := by
    rw [val_main_v12_apply, val_main_v10_apply, hi]
    exact hk b
  rw [val_main_v13_apply, h11, h12]
  exact cmpi_ne_word c (k b)

/-- The hinge at `(b, c)`, before the mask. -/
theorem hinge_apply (X : (⟨S4000000x5, .f32⟩ : BufTy).Contents (Elt Ideal)) (T : (⟨S4000000, .i32⟩ : BufTy).Contents (Elt Ideal))
    (k : Fin 4000000 → Fin 5) (hk : Labels (n := 4000000) T k) (b : Fin 4000000) (c : Fin 5) :
    val_main_v7 (F := Ideal) X T (ix2 b c) = max 0 ((one + X (ix2 b c)) - X (ix2 b (k b))) := by
  have hi : idx_main_v4 (ix2 b c) = ix2 b (0 : Fin 1) := by
    funext a
    match a with
    | ⟨0, _⟩ => rfl
    | ⟨1, _⟩ => rfl
  rw [val_main_v7_apply, val_main_v6_apply, val_main_cst_0_apply, val_main_v5_apply, val_main_v3_apply, val_main_v2_apply,
    val_main_cst_apply, val_main_v4_apply, hi, gold_apply X T k hk b]
  show max (Ideal.ofBits .f32 0x00000000#32) _ = _
  rw [Ideal.ofBits_zero_f32]
  rfl

/-- Entry `(b, c)` is the specification's term. -/
theorem entry_apply (X : (⟨S4000000x5, .f32⟩ : BufTy).Contents (Elt Ideal)) (T : (⟨S4000000, .i32⟩ : BufTy).Contents (Elt Ideal))
    (k : Fin 4000000 → Fin 5) (hk : Labels (n := 4000000) T k) (b : Fin 4000000) (c : Fin 5) :
    val_main_v14 (F := Ideal) X T (ix2 b c) = term (n := 4000000) X k b c := by
  have hz : val_main_call1_v1 (F := Ideal) (ix2 b c) = 0 := by
    rw [val_main_call1_v1_apply, val_main_call1_v0_apply, val_main_cst_1_apply]
    exact Ideal.ofBits_zero_f32
  rw [val_main_v14_apply, mask_apply T k hk b c, hinge_apply X T k hk b c, hz]
  unfold term
  by_cases hc : c = k b
  · rw [if_pos hc, if_pos hc]; exact select_zero _ _
  · rw [if_neg hc, if_neg hc]; exact select_one _ _

/-! ## The sum and the quotient -/

/-- The sum of all entries is the specification's total. -/
theorem sum_apply (X : (⟨S4000000x5, .f32⟩ : BufTy).Contents (Elt Ideal)) (T : (⟨S4000000, .i32⟩ : BufTy).Contents (Elt Ideal))
    (k : Fin 4000000 → Fin 5) (hk : Labels (n := 4000000) T k) :
    ∑ j : S4000000x5.Idx, val_main_v14 (F := Ideal) X T j = total (n := 4000000) X k := by
  refine (sum_idx2 (val_main_v14 (F := Ideal) X T)).trans ?_
  exact Finset.sum_congr rfl fun b _ => Finset.sum_congr rfl fun c _ => entry_apply X T k hk b c

/-- The reference's last stage is the loss. -/
theorem ref_value (X : (⟨S4000000x5, .f32⟩ : BufTy).Contents (Elt Ideal)) (T : (⟨S4000000, .i32⟩ : BufTy).Contents (Elt Ideal))
    (k : Fin 4000000 → Fin 5) (hk : Labels (n := 4000000) T k) :
    val_main_v16 (F := Ideal) X T = loss X k := by
  funext i
  rw [val_main_v16_apply, val_main_v15_apply, sum_apply X T k hk, val_main_cst_2_apply, val_main_cst_3_apply]
  show Ideal.div (Ideal.ofBits .f32 0x00000000#32 + _) _ = _
  rw [Ideal.ofBits_zero_f32]
  rfl

end Cert.ReferenceIdeal.RefValue

end
-- ==== Proof.PreLabels.lean ====
/-
  What the precondition says of the labels.

  Beside the finiteness of the scores the precondition has two conjuncts, each a conjunction over all rows: every label
  word is at least 0 and every label word is below 5, both compared as signed 32-bit integers. A word in that range has
  an unsigned value below 5 and is the word of that value, so each row has a label among the five columns.
-/
import proofs.«401084_j64931315581274_1_alg».proof.Proof.Gen.Pre_finite_inputs
import proofs.«401084_j64931315581274_1_alg».proof.Proof.Spec
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx Cert.Hinge

/-- The rank-0 shape has one index. -/
instance : Subsingleton S_.Idx := ⟨fun a b => funext fun d => d.elim0⟩

/-- A 32-bit word that reads, signed, at least 0 and below 5 has an unsigned value below 5. -/
theorem toNat_lt_five {w : BitVec 32} (h0 : (0#32 : BitVec 32).toInt ≤ w.toInt) (h5 : w.toInt < (5#32 : BitVec 32).toInt) :
    w.toNat < 5 := by
  rw [show (0#32 : BitVec 32).toInt = 0 from by decide] at h0
  rw [show (5#32 : BitVec 32).toInt = 5 from by decide] at h5
  rw [BitVec.toInt_eq_toNat_cond] at h0 h5
  split at h0 <;> omega

/-- The precondition says every label word is, read signed, in the range [0, 5): so each is the word of a column
    number, and that column number is the label. -/
theorem labels_of_pre (X : FVec Ideal S4000000x5 .f32) (T : IVec S4000000 32)
    (h : Cert.Pre_finite_inputs.fn (F := Ideal) X T = fun _ => 1#1) : ∃ k : Fin 4000000 → Fin 5, Labels (n := 4000000) T k := by
  have h' := congrFun h ix0
  dsimp only [Cert.Pre_finite_inputs.fn, andi] at h'
  obtain ⟨h37, h10⟩ := IntOp.andi_eq_one.1 h'
  obtain ⟨-, h6⟩ := IntOp.andi_eq_one.1 h37
  -- each word is at least 0 and below 5, read signed
  have hge : ∀ b : Fin 4000000, (0#32 : BitVec 32).toInt ≤ (T (ix1 b)).toInt := by
    intro b
    have e := Host.reduce_andi_all _ _ _ _ _ h6 (ix1 b)
    dsimp only [cmpi] at e
    rw [StableHlo.Predicate.bcast_scalar _ Facts.h_S_] at e
    exact IntOp.cmpi_sge.1 e
  have hlt : ∀ b : Fin 4000000, (T (ix1 b)).toInt < (5#32 : BitVec 32).toInt := by
    intro b
    have e := Host.reduce_andi_all _ _ _ _ _ h10 (ix1 b)
    dsimp only [cmpi] at e
    rw [StableHlo.Predicate.bcast_scalar _ Facts.h_S_] at e
    exact IntOp.cmpi_slt.1 e
  have hN : ∀ b : Fin 4000000, (T (ix1 b)).toNat < 5 := fun b => toNat_lt_five (hge b) (hlt b)
  refine ⟨fun b => ⟨(T (ix1 b)).toNat, hN b⟩, fun b => ?_⟩
  apply BitVec.eq_of_toNat_eq
  rw [BitVec.toNat_ofNat]
  show (T (ix1 b)).toNat = (T (ix1 b)).toNat % 2 ^ 32
  have := hN b
  omega

end Cert.Pre_finite_inputs.Decode

end
-- ==== Proof.lean ====
/-
  The multi-class hinge loss over four million rows of five scores, computed by a tiled kernel and by a whole-array
  reference: the two agree over the extended reals when every label is one of the five classes.

  The kernel walks the rows in 500 blocks of 8000, two runs of 250 blocks. For each block it forms, row by row, the
  labelled score as the sum of the row masked to the label's column, the hinges max 0 (1 + x - labelled) of the other
  columns, and the block's total, which it adds to an accumulator that is reset at the first block of a run and
  written out after the last; the two runs' sums are then added from zero and divided by sixteen million. The reference
  gathers the labelled score of each row, forms the same hinges over the whole matrix, masks the label's column, sums
  everything from zero and divides by the same constant.

  With labels in range both labelled scores are the row's entry in the label's column, so entry by entry both programs
  add the same terms (Spec.lean); the kernel's order of addition — rows inside a block, blocks inside a run, the two
  runs — is a regrouping of one finite sum in a commutative monoid, so no finiteness of the scores is used. A label
  outside the five classes is read differently by the two programs (the kernel finds no labelled column, the reference
  wraps a negative label and fills an overshooting one), which is why the precondition confines the labels.

  The frames of the two kernel programs are the generated ones; the reference's frame is its run with the result dropped.
-/
import proofs.«401084_j64931315581274_1_alg».proof.Defs
import proofs.«401084_j64931315581274_1_alg».proof.Proof.Gen.Kernel
import proofs.«401084_j64931315581274_1_alg».proof.Proof.Gen.Kernel.Skeleton
import proofs.«401084_j64931315581274_1_alg».proof.Proof.Gen.Kernel.Launch
import proofs.«401084_j64931315581274_1_alg».proof.Proof.Gen.Kernel.Points
import proofs.«401084_j64931315581274_1_alg».proof.Proof.Gen.Kernel.Frame
import proofs.«401084_j64931315581274_1_alg».proof.Proof.Gen.KernelIdeal
import proofs.«401084_j64931315581274_1_alg».proof.Proof.Gen.KernelIdeal.Skeleton
import proofs.«401084_j64931315581274_1_alg».proof.Proof.Gen.KernelIdeal.Launch
import proofs.«401084_j64931315581274_1_alg».proof.Proof.Gen.KernelIdeal.Points
import proofs.«401084_j64931315581274_1_alg».proof.Proof.Gen.KernelIdeal.Frame
import proofs.«401084_j64931315581274_1_alg».proof.Proof.Gen.ReferenceIdeal
import proofs.«401084_j64931315581274_1_alg».proof.Proof.Gen.Pre_finite_inputs
import proofs.«401084_j64931315581274_1_alg».proof.Proof.KernelValue
import proofs.«401084_j64931315581274_1_alg».proof.Proof.RefRun
import proofs.«401084_j64931315581274_1_alg».proof.Proof.RefRead
import proofs.«401084_j64931315581274_1_alg».proof.Proof.RefValue
import proofs.«401084_j64931315581274_1_alg».proof.Proof.PreLabels
import Idealize.ShloMosaic.Adequacy
import Idealize.ShloMosaic.Init

noncomputable section

namespace Cert.Proof

open Idealize.ShloMosaic Idealize.SL.Sem

/-- The reference terminates with its arguments unchanged: its run, the result dropped. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both programs end at the loss of the launched scores under the labels the precondition provides. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  choose kc hk using fun c => Cert.Pre_finite_inputs.Decode.labels_of_pre _ _ (hpre c)
  refine ⟨fun c => Cert.Hinge.loss (m ((c.tc : Thread Cert.KernelIdeal.nD Cert.KernelIdeal.τ).loc Cert.KernelIdeal.main_arg0)) (kc c),
    Cert.KernelIdeal.Value.run m ρ kc hk, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  exact Cert.ReferenceIdeal.RefValue.ref_value _ _ (kc c) (hk c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref, trivial, algebraic⟩

end Cert.Proof

end
